-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S100000x64 : Shape := ⟨2, ![100000, 64]⟩
abbrev S1200000x64 : Shape := ⟨2, ![1200000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S1200000 32) (main_arg1 : IVec S1200000 32) (main_arg2 : FVec F S100000x64 .f32) (main_arg3 : FVec F S1200000x64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg3
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S1200000 : Shape := ⟨1, ![1200000]⟩
abbrev S100000x64 : Shape := ⟨2, ![100000, 64]⟩
abbrev S1200000x64 : Shape := ⟨2, ![1200000, 64]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S_ : Shape := ⟨0, ![]⟩
abbrev S1200000x1 : Shape := ⟨2, ![1200000, 1]⟩
abbrev S12000x64 : Shape := ⟨2, ![12000, 64]⟩

abbrev nBuf : Space → Nat
  | .hbm => 46
  | .vmem => 24
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S100000x64, .f32⟩
  | .hbm, ⟨3, _⟩ => ⟨S1200000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x64, .f32⟩
  | .hbm, ⟨17, _⟩ => ⟨S1x64, .f32⟩
  | .hbm, ⟨18, _⟩ => ⟨S100000x64, .f32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S12000x64, .f32⟩
  | .local _ .vmem, ⟨9, _⟩ => ⟨S12000x64, .f32⟩
  | .local _ .vmem, ⟨10, _⟩ => ⟨S12000x64, .f32⟩
  | .local _ .vmem, ⟨11, _⟩ => ⟨S12000x64, .f32⟩
  | .local _ .vmem, ⟨12, _⟩ => ⟨S12000x64, .f32⟩
  | .local _ .vmem, ⟨13, _⟩ => ⟨S12000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S12000x64, .f32⟩
  | .local _ .vmem, ⟨23, _⟩ => ⟨S12000x64, .f32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S12000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  broadcasts_S1x64_S12000x64 : S1x64.Broadcasts S12000x64
  bcast_S_S100000x64 : S_.BroadcastsInDim S100000x64 (![] : Fin 0 → Fin S100000x64.rank)
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  dot_S12000x64_S64x64_S12000x64_1_0_0_1_n_n_wf : DotDims.WF S12000x64 S64x64 S12000x64 [1] [0] [0] [1] [] []
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x64.size a ≤ S1200000x64.size a
  hwx1_0 : ∀ i : grid1.Coords, EltTy.bits .f32 = 32 ∨ (Rect.block (s := S1200000x64) S12000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x64.size a ≤ S1200000x64.size a
  hwx1_1 : ∀ i : grid1.Coords, EltTy.bits .f32 = 32 ∨ (Rect.block (s := S1200000x64) S12000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x64.size a ≤ S1200000x64.size a
  hwx1_2 : ∀ i : grid1.Coords, EltTy.bits .f32 = 32 ∨ (Rect.block (s := S1200000x64) S12000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S12000x64.size a ≤ S1200000x64.size a
  hwx1_11 : ∀ i : grid1.Coords, EltTy.bits .f32 = 32 ∨ (Rect.block (s := S1200000x64) S12000x64.size (cc1_transform_11 i) (hinb1_11 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S12000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S12000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S12000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v21) S12000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S1200000 : Shape := ⟨1, ![1200000]⟩
abbrev S100000x64 : Shape := ⟨2, ![100000, 64]⟩
abbrev S1200000x64 : Shape := ⟨2, ![1200000, 64]⟩
abbrev S64x64 : Shape := ⟨2, ![64, 64]⟩
abbrev S64 : Shape := ⟨1, ![64]⟩
abbrev S1x64 : Shape := ⟨2, ![1, 64]⟩
abbrev S_ : Shape := ⟨0, ![]⟩
abbrev S1200000x1 : Shape := ⟨2, ![1200000, 1]⟩

abbrev nBuf : Space → Nat
  | .hbm => 67
  | .vmem => 0
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S100000x64, .f32⟩
  | .hbm, ⟨3, _⟩ => ⟨S1200000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S100000x64, .f32⟩
  | .hbm, ⟨17, _⟩ => ⟨S1x64, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S1200000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S1200000x64, .f32⟩
  | .hbm, ⟨45, _⟩ => ⟨S1200000x64, .f32⟩
  | .hbm, ⟨46, _⟩ => ⟨S1x64, .f32⟩
  | .hbm, ⟨47, _⟩ => ⟨S1200000x64, .f32⟩
  | .hbm, ⟨48, _⟩ => ⟨S1200000x64, .f32⟩
  | .hbm, ⟨49, _⟩ => ⟨S1200000x64, .f32⟩
  | .hbm, ⟨50, _⟩ => ⟨S1200000x64, .f32⟩
  | .hbm, ⟨51, _⟩ => ⟨S1x64, .f32⟩
  | .hbm, ⟨52, _⟩ => ⟨S1200000x64, .f32⟩
  | .hbm, ⟨53, _⟩ => ⟨S1200000x64, .f32⟩
  | .hbm, ⟨54, _⟩ => ⟨S1200000x64, .f32⟩
  | .hbm, ⟨55, _⟩ => ⟨S1x64, .f32⟩
  | .hbm, ⟨56, _⟩ => ⟨S1200000x64, .f32⟩
  | .hbm, ⟨57, _⟩ => ⟨S1200000x64, .f32⟩
  | .hbm, ⟨58, _⟩ => ⟨S1200000x64, .f32⟩
  | .hbm, ⟨59, _⟩ => ⟨S1200000x64, .f32⟩
  | .hbm, ⟨60, _⟩ => ⟨S1x64, .f32⟩
  | .hbm, ⟨61, _⟩ => ⟨S1200000x64, .f32⟩
  | .hbm, ⟨62, _⟩ => ⟨S1200000x64, .f32⟩
  | .hbm, ⟨63, _⟩ => ⟨S_, .f32⟩
  | .hbm, ⟨64, _⟩ => ⟨S100000x64, .f32⟩
  | .hbm, ⟨65, _⟩ => ⟨S1200000x1, .i32⟩
  | .hbm, ⟨66, _⟩ => ⟨S100000x64, .f32⟩
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.LibDenseRows.lean ====
/-
  A dense layer read at an entry.

  A dense layer takes an M×K array x, a K×N weight w and a bias of N entries, and gives the M×N array whose
  entry (p, q) is  Σ_k x (p, k) · w (k, q) + bias q  on the extended reals. Entry (p, q) depends on row p of x
  only. A kernel body writes the layer as a matrix product accumulated into the zero array plus the bias, held as
  a one-row matrix, broadcast down the rows; a host program writes it as a dot_general plus the bias vector
  broadcast to one row and then down the rows. Both are read here at an entry, generic in the three extents and in
  the operands' float formats (a change of format is the identity on the extended reals).
-/
import Idealize.ShloMosaic.Lib.StackMember
import Idealize.ShloMosaic.Lib.KernelVsHost
import Idealize.ShloMosaic.Lib.Pipeline.Value
import Idealize.ShloMosaic.Lib.ValueIdx
import Idealize.ShloMosaic.PureOps.Ideal.Laws

namespace Idealize.ShloMosaic.DenseRows

open Idealize.ShloMosaic Idealize.ShloMosaic.ValueIdx

/-- One row through a dense layer: `Σ_k v k · w k q + b q`. -/
noncomputable def layer {K N : Nat} (w : Fin K → Fin N → EReal) (b : Fin N → EReal) (v : Fin K → EReal) : Fin N → EReal :=
  fun q => (∑ k : Fin K, v k * w k q) + b q

/-- One row through two dense layers with tanh between them. -/
noncomputable def mlp {K H N : Nat} (w1 : Fin K → Fin H → EReal) (b1 : Fin H → EReal) (w2 : Fin H → Fin N → EReal)
    (b2 : Fin N → EReal) (v : Fin K → EReal) : Fin N → EReal :=
  layer w2 b2 (fun h => Ideal.tanh (layer w1 b1 v h))

/-- A one-row matrix broadcast down `M` rows, read at (p, q), is the row at (0, q). -/
theorem broadcastTo_oneRow_apply {α : Type} {M N : Nat} (y : (⟨2, ![1, N]⟩ : Shape).Idx → α)
    (hb : (⟨2, ![1, N]⟩ : Shape).Broadcasts ⟨2, ![M, N]⟩) (p : Fin M) (q : Fin N) :
    broadcastTo ⟨2, ![M, N]⟩ y hb (ix2 p q) = y (ix2 (0 : Fin 1) q) := by
  refine broadcastTo_apply y hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's spelling: the product into the zero array plus the one-row bias broadcast down the rows. -/
theorem kernel_layer_apply {φ₁ φ₂ : FTy} (M K N : Nat) (x : FVec Ideal ⟨2, ![M, K]⟩ φ₁) (w : FVec Ideal ⟨2, ![K, N]⟩ φ₂)
    (bb : FVec Ideal ⟨2, ![1, N]⟩ .f32) (hsc : (⟨2, ![1, N]⟩ : Shape).ShapeCasts ⟨2, ![1, N]⟩)
    (hb : (⟨2, ![1, N]⟩ : Shape).Broadcasts ⟨2, ![M, N]⟩) (p : Fin M) (q : Fin N) :
    addf (matmul (DotDims.plain M K N) none x w (constant ⟨2, ![M, N]⟩ .f32 0x00000000#32))
        (broadcastTo ⟨2, ![M, N]⟩ (shapeCast ⟨2, ![1, N]⟩ bb hsc) hb) (ix2 p q)
      = layer (fun k q => w (ix2 k q)) (fun q => bb (ix2 (0 : Fin 1) q)) (fun k => x (ix2 p k)) q := by
  show (matmul (DotDims.plain M K N) none x w (constant ⟨2, ![M, N]⟩ .f32 0x00000000#32)) (ix2 p q)
      + (broadcastTo ⟨2, ![M, N]⟩ (shapeCast ⟨2, ![1, N]⟩ bb hsc) hb) (ix2 p q) = _
  rw [matmul_zero_eq_dotGeneral, StackMember.dotGeneral_plain_apply, shapeCast_self, broadcastTo_oneRow_apply]
  rfl

/-- The host's spelling: the dot_general plus the bias vector broadcast to one row and then down the rows. -/
theorem host_layer_apply {φ₁ φ₂ : FTy} (M K N : Nat) (x : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (DotDims.plain M K N) none x w)
        (broadcastInDim ⟨2, ![M, N]⟩ ![0, 1] h2 (broadcastInDim ⟨2, ![1, N]⟩ ![1] h1 b)) (ix2 p q)
      = layer (fun k q => w (ix2 k q)) (fun q => b (ix1 q)) (fun k => x (ix2 p k)) q := by
  show (Host.dotGeneral (DotDims.plain M K N) none x w) (ix2 p q)
      + (broadcastInDim ⟨2, ![M, N]⟩ ![0, 1] h2 (broadcastInDim ⟨2, ![1, N]⟩ ![1] h1 b)) (ix2 p q) = _
  rw [StackMember.dotGeneral_plain_apply, broadcastInDim_oneRow_apply,
    broadcastInDim_apply ![1] h1 b (ix2 (0 : Fin 1) q) (ix1 q) (by
      intro a
      match a with
      | ⟨0, _⟩ =>
        show q.val = if N = 1 then 0 else q.val
        split
        · have := q.isLt; omega
        · rfl)]
  rfl

/-- Every row of an M×K array sent through a map of rows: entry (p, q) of the result is `f (row p) q`. -/
noncomputable def rowwise {M K N : Nat} (f : (Fin K → EReal) → Fin N → EReal) (a : FVec Ideal ⟨2, ![M, K]⟩ .f32) :
    FVec Ideal ⟨2, ![M, N]⟩ .f32 :=
  fun i => f (fun k => a (ix2 (i 0 : Fin M) k)) (i 1 : Fin N)

theorem rowwise_apply {M K N : Nat} (f : (Fin K → EReal) → Fin N → EReal) (a : FVec Ideal ⟨2, ![M, K]⟩ .f32)
    (p : Fin M) (q : Fin N) : rowwise f a (ix2 p q) = f (fun k => a (ix2 p k)) q := rfl

/-- Two row maps one after the other are one row map. -/
theorem rowwise_rowwise {M K H N : Nat} (f : (Fin K → EReal) → Fin H → EReal) (g : (Fin H → EReal) → Fin N → EReal)
    (a : FVec Ideal ⟨2, ![M, K]⟩ .f32) : rowwise g (rowwise f a) = rowwise (fun v => g (f v)) a := rfl

/-- A weight array as a function of its two coordinates. -/
abbrev wFn {K N : Nat} {φ : FTy} (w : FVec Ideal ⟨2, ![K, N]⟩ φ) : Fin K → Fin N → EReal := fun k q => w (ix2 k q)
/-- A bias vector as a function of its coordinate. -/
abbrev vFn {N : Nat} (b : FVec Ideal ⟨1, ![N]⟩ .f32) : Fin N → EReal := fun q => b (ix1 q)

/-- The host's two dense layers with tanh between them are the row map `mlp` on every row. -/
theorem host_mlp_eq (M K H N : Nat) (x : FVec Ideal ⟨2, ![M, K]⟩ .f32) (w1 : FVec Ideal ⟨2, ![K, H]⟩ .f32)
    (b1 : FVec Ideal ⟨1, ![H]⟩ .f32) (w2 : FVec Ideal ⟨2, ![H, N]⟩ .f32) (b2 : FVec Ideal ⟨1, ![N]⟩ .f32)
    (h1 : (⟨1, ![H]⟩ : Shape).BroadcastsInDim ⟨2, ![1, H]⟩ ![1]) (h2 : (⟨2, ![1, H]⟩ : Shape).BroadcastsInDim ⟨2, ![M, H]⟩ ![0, 1])
    (h3 : (⟨1, ![N]⟩ : Shape).BroadcastsInDim ⟨2, ![1, N]⟩ ![1]) (h4 : (⟨2, ![1, N]⟩ : Shape).BroadcastsInDim ⟨2, ![M, N]⟩ ![0, 1]) :
    addf (Host.dotGeneral (DotDims.plain M H N) none
          (Host.tanh (addf (Host.dotGeneral (DotDims.plain M K H) none x w1)
            (broadcastInDim ⟨2, ![M, H]⟩ ![0, 1] h2 (broadcastInDim ⟨2, ![1, H]⟩ ![1] h1 b1)))) w2)
        (broadcastInDim ⟨2, ![M, N]⟩ ![0, 1] h4 (broadcastInDim ⟨2, ![1, N]⟩ ![1] h3 b2))
      = rowwise (mlp (wFn w1) (vFn b1) (wFn w2) (vFn b2)) x := by
  funext i
  obtain ⟨p, q, rfl⟩ : ∃ (p : Fin M) (q : Fin N), i = ix2 p q := ⟨i 0, i 1, eq_ix2 i⟩
  refine (host_layer_apply M H N _ w2 b2 h3 h4 p q).trans ?_
  rw [rowwise_apply]
  unfold mlp
  refine congrArg (fun v => layer (wFn w2) (vFn b2) v q) (funext fun k => ?_)
  exact congrArg Ideal.tanh (host_layer_apply M K H x w1 b1 h1 h2 p k)

end Idealize.ShloMosaic.DenseRows
-- ==== Proof.KernelBody.lean ====
/-
  What the two kernel bodies compute, read at an entry, on the extended reals.

  The node kernel's block of 10000 rows goes through two dense layers with tanh between them, row by row; the edge
  kernel's block of 12000 rows first adds, entry by entry, the gathered features of the edge's first endpoint, the
  edge's basis row and the gathered features of its second endpoint (in that order), and sends the sum through two such
  two-layer maps one after the other. The roundings to bf16 before each product are the identity on the extended reals.
-/
import proofs.«120039_j12532714569875_1_alg».proof.Proof.Gen.KernelIdeal.Skeleton
import proofs.«120039_j12532714569875_1_alg».proof.Proof.LibDenseRows

noncomputable section

namespace Cert.KernelIdeal.Body

open Cert.KernelIdeal Cert.KernelIdeal.Gen Idealize.ShloMosaic Idealize.ShloMosaic.ValueIdx Idealize.ShloMosaic.DenseRows

/-- A 64×64 weight block as a function of its two coordinates. -/
abbrev wOf (x : Vec Ideal S64x64 .f32) : Fin 64 → Fin 64 → EReal := fun k q => x (ix2 k q)
/-- A one-row bias block as a function of its column. -/
abbrev bOf (x : Vec Ideal S1x64 .f32) : Fin 64 → EReal := fun q => x (ix2 (0 : Fin 1) q)

/-- Entry (p, q) of the node kernel's stored value: row p of the input block through the two layers, at column q. -/
theorem node_pay_apply (x0 : Vec Ideal S10000x64 .f32) (x1 : Vec Ideal S64x64 .f32) (x2 : Vec Ideal S1x64 .f32)
    (x3 : Vec Ideal S64x64 .f32) (x4 : Vec Ideal S1x64 .f32) (p : Fin 10000) (q : Fin 64) :
    k0_pay1 (F := Ideal) x0 x1 x2 x3 x4 (ix2 p q)
      = mlp (wOf x1) (bOf x2) (wOf x3) (bOf x4) (fun k => x0 (ix2 p k)) q := by
  unfold k0_pay1
  refine (kernel_layer_apply 10000 64 64 _ _ _ _ _ p q).trans ?_
  unfold mlp
  refine congrArg (fun v => layer (wOf x3) (bOf x4) v q) (funext fun k => ?_)
  exact congrArg Ideal.tanh (kernel_layer_apply 10000 64 64 _ _ _ _ _ p k)

/-- Entry (p, q) of the edge kernel's stored value: the sum of the three input blocks' rows p through the first
    two-layer map and then the second, at column q. -/
theorem edge_pay_apply (x0 x1 x2 : Vec Ideal S12000x64 .f32) (x3 : Vec Ideal S64x64 .f32) (x4 : Vec Ideal S1x64 .f32)
    (x5 : Vec Ideal S64x64 .f32) (x6 : Vec Ideal S1x64 .f32) (x7 : Vec Ideal S64x64 .f32) (x8 : Vec Ideal S1x64 .f32)
    (x9 : Vec Ideal S64x64 .f32) (x10 : Vec Ideal S1x64 .f32) (p : Fin 12000) (q : Fin 64) :
    k1_pay1 (F := Ideal) (k1_pay2 x9) (k1_pay3 x0 x2 x1 x3 x4 x5 x6 x7 x8) x10 (ix2 p q)
      = mlp (wOf x7) (bOf x8) (wOf x9) (bOf x10)
          (mlp (wOf x3) (bOf x4) (wOf x5) (bOf x6) (fun k => x0 (ix2 p k) + x2 (ix2 p k) + x1 (ix2 p k))) q := by
  unfold k1_pay1 k1_pay2 k1_pay3
  refine (kernel_layer_apply 12000 64 64 _ _ _ _ _ p q).trans ?_
  unfold mlp
  refine congrArg (fun v => layer (wOf x9) (bOf x10) v q) (funext fun k => ?_)
  refine congrArg Ideal.tanh ((kernel_layer_apply 12000 64 64 _ _ _ _ _ p k).trans ?_)
  refine congrArg (fun v => layer (wOf x7) (bOf x8) v k) (funext fun j => ?_)
  refine (kernel_layer_apply 12000 64 64 _ _ _ _ _ p j).trans ?_
  refine congrArg (fun v => layer (wOf x5) (bOf x6) v j) (funext fun i => ?_)
  refine congrArg Ideal.tanh ((kernel_layer_apply 12000 64 64 _ _ _ _ _ p i).trans ?_)
  refine congrArg (fun v => layer (wOf x3) (bOf x4) v i) (funext fun l => ?_)
  show (shapeCast S12000x64 x0 shapeCasts_S12000x64_S12000x64) (ix2 p l) + x2 (ix2 p l)
      + (shapeCast S12000x64 x1 shapeCasts_S12000x64_S12000x64) (ix2 p l) = _
  rw [shapeCast_self, shapeCast_self]

end Cert.KernelIdeal.Body

end
-- ==== Proof.NodeArray.lean ====
/-
  The node kernel's output array, as one function of the arrays the region finds.

  The grid has ten points; point t reads rows 10000·t … 10000·t + 9999 of the node features and the whole of both weights
  and both one-row biases, and writes back the same rows of the output. Each output row is its input row sent through
  the two dense layers, so the ten written blocks are the restrictions of one array — `nodeArr` — and they tile it.
-/
import proofs.«120039_j12532714569875_1_alg».proof.Proof.Gen.KernelIdeal.Frame
import proofs.«120039_j12532714569875_1_alg».proof.Proof.KernelBody
import Idealize.ShloMosaic.Lib.Pipeline.Value

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem Idealize.ShloMosaic.ValueIdx Idealize.ShloMosaic.DenseRows
open Idealize.ShloMosaic.Pipeline (Dat)

/-- Every row of `a2` through the two dense layers with weights `a4`, `a6` and one-row biases `b0`, `b1`. -/
def nodeArr (a2 : Vec Ideal S100000x64 .f32) (a4 : Vec Ideal S64x64 .f32) (b0 : Vec Ideal S1x64 .f32)
    (a6 : Vec Ideal S64x64 .f32) (b1 : Vec Ideal S1x64 .f32) : Vec Ideal S100000x64 .f32 :=
  fun i => mlp (wOf a4) (bOf b0) (wOf a6) (bOf b1) (fun k => a2 (ix2 (i 0 : Fin 100000) k)) (i 1 : Fin 64)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the others at block (0, 0). -/
theorem idx0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Window 0's block at point t is rows 10000·t … of the node features. -/
theorem iblk0_0_apply (c : Dev nD) (t : Fin cfg0.N) (x : S10000x64.Idx) (k : S100000x64.Idx)
    (hk0 : (k 0).val = 10000 * t.val + (x 0).val) (hk1 : (k 1).val = (x 1).val) :
    (iblk0 V c 0 t : Vec Ideal S10000x64 .f32) x = (V c main_arg2 : Vec Ideal S100000x64 .f32) k := by
  obtain ⟨h0, h1, -⟩ := idx0 t
  unfold iblk0
  rw [View.read_apply]
  show V c main_arg2 _ = V c main_arg2 _
  refine congrArg (V c main_arg2) (funext fun a => Fin.ext ?_)
  match a with
  | ⟨0, _⟩ => show win0_0.index t 0 * 10000 + 1 * (x 0).val = (k 0).val; rw [h0, hk0]; omega
  | ⟨1, _⟩ => show win0_0.index t 1 * 64 + 1 * (x 1).val = (k 1).val; rw [h1, hk1]; omega

/-- Window 1's block is the whole first weight. -/
theorem iblk0_1_eq (c : Dev nD) (t : Fin cfg0.N) : (iblk0 V c 1 t : Vec Ideal S64x64 .f32) = V c main_arg4 := by
  obtain ⟨-, -, -, -, h0, h1, -⟩ := idx0 t
  funext x
  unfold iblk0
  rw [View.read_apply]
  show V c main_arg4 _ = V c main_arg4 _
  refine congrArg (V c main_arg4) (funext fun a => Fin.ext ?_)
  match a with
  | ⟨0, _⟩ => show win0_1.index t 0 * 64 + 1 * (x 0).val = (x 0).val; rw [h0]; omega
  | ⟨1, _⟩ => show win0_1.index t 1 * 64 + 1 * (x 1).val = (x 1).val; rw [h1]; omega

/-- Window 2's block is the whole first bias row. -/
theorem iblk0_2_eq (c : Dev nD) (t : Fin cfg0.N) : (iblk0 V c 2 t : Vec Ideal S1x64 .f32) = V c main_v0 := by
  obtain ⟨-, -, -, -, -, -, h0, h1, -⟩ := idx0 t
  funext x
  unfold iblk0
  rw [View.read_apply]
  show V c main_v0 _ = V c main_v0 _
  refine congrArg (V c main_v0) (funext fun a => Fin.ext ?_)
  match a with
  | ⟨0, _⟩ => show win0_2.index t 0 * 1 + 1 * (x 0).val = (x 0).val; rw [h0]; omega
  | ⟨1, _⟩ => show win0_2.index t 1 * 64 + 1 * (x 1).val = (x 1).val; rw [h1]; omega

/-- Window 3's block is the whole second weight. -/
theorem iblk0_3_eq (c : Dev nD) (t : Fin cfg0.N) : (iblk0 V c 3 t : Vec Ideal S64x64 .f32) = V c main_arg6 := by
  obtain ⟨-, -, -, -, -, -, -, -, h0, h1, -⟩ := idx0 t
  funext x
  unfold iblk0
  rw [View.read_apply]
  show V c main_arg6 _ = V c main_arg6 _
  refine congrArg (V c main_arg6) (funext fun a => Fin.ext ?_)
  match a with
  | ⟨0, _⟩ => show win0_3.index t 0 * 64 + 1 * (x 0).val = (x 0).val; rw [h0]; omega
  | ⟨1, _⟩ => show win0_3.index t 1 * 64 + 1 * (x 1).val = (x 1).val; rw [h1]; omega

/-- Window 4's block is the whole second bias row. -/
theorem iblk0_4_eq (c : Dev nD) (t : Fin cfg0.N) : (iblk0 V c 4 t : Vec Ideal S1x64 .f32) = V c main_v1 := by
  obtain ⟨-, -, -, -, -, -, -, -, -, -, h0, h1⟩ := idx0 t
  funext x
  unfold iblk0
  rw [View.read_apply]
  show V c main_v1 _ = V c main_v1 _
  refine congrArg (V c main_v1) (funext fun a => Fin.ext ?_)
  match a with
  | ⟨0, _⟩ => show win0_4.index t 0 * 1 + 1 * (x 0).val = (x 0).val; rw [h0]; omega
  | ⟨1, _⟩ => show win0_4.index t 1 * 64 + 1 * (x 1).val = (x 1).val; rw [h1]; omega

/-- The stored value at an entry of the block is `nodeArr` at the matching entry of the array, whatever the block's
    rows are, as long as they are the array's rows 10000·t …. -/
theorem node_block (a2 : Vec Ideal S100000x64 .f32) (x0 : Vec Ideal S10000x64 .f32) (x1 : Vec Ideal S64x64 .f32)
    (x2 : Vec Ideal S1x64 .f32) (x3 : Vec Ideal S64x64 .f32) (x4 : Vec Ideal S1x64 .f32) (t : Nat)
    (hx0 : ∀ (x : S10000x64.Idx) (k : S100000x64.Idx), (k 0).val = 10000 * t + (x 0).val → (k 1).val = (x 1).val → x0 x = a2 k)
    (j : S10000x64.Idx) (i : S100000x64.Idx) (hi0 : (i 0).val = 10000 * t + (j 0).val) (hi1 : (i 1).val = (j 1).val) :
    k0_pay1 (F := Ideal) x0 x1 x2 x3 x4 j = nodeArr a2 x1 x2 x3 x4 i := by
  obtain ⟨p, q, rfl⟩ : ∃ (p : Fin 10000) (q : Fin 64), j = ix2 p q := ⟨j 0, j 1, eq_ix2 j⟩
  rw [node_pay_apply]
  unfold nodeArr
  have e1 : (i 1 : Fin 64) = q := Fin.ext hi1
  rw [e1]
  refine congrArg (fun v => mlp (wOf x1) (bOf x2) (wOf x3) (bOf x4) v q) (funext fun k => ?_)
  exact hx0 (ix2 p k) (ix2 (i 0 : Fin 100000) k) hi0 rfl

/-- What point t writes back is block t of `nodeArr` of the arrays as the region finds them. -/
theorem flushed0_5 (c : Dev nD) (t : Fin cfg0.N) :
    (dat0 V c).flushed 5 t = ((cfg0.win 5).blk t).view.read (Elt Ideal)
      (nodeArr (V c main_arg2) (V c main_arg4) (V c main_v0) (V c main_arg6) (V c main_v1)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [iblk0_1_eq, iblk0_2_eq, iblk0_3_eq, iblk0_4_eq]
  obtain ⟨-, -, h0, h1, -⟩ := idx0 t
  funext j
  rw [View.read_apply]
  refine node_block (V c main_arg2) (iblk0 V c 0 t) _ _ _ _ t.val (fun x k hk0 hk1 => iblk0_0_apply V c t x k hk0 hk1) j _ ?_ ?_
  · show win0_5.index t 0 * 10000 + 1 * (j 0).val = 10000 * t.val + (j 0).val; rw [h0]; omega
  · show win0_5.index t 1 * 64 + 1 * (j 1).val = (j 1).val; rw [h1]; omega

/-- An index of the array is in point t's block iff each coordinate is in the block's range on its axis. -/
theorem mem_blk0_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v2).slice (win0_5.rect t)).set ↔ _
  rw [View.set_slice_whole, Rect.mem_set_unit]
  exact Iff.rfl

/-- The ten blocks tile the array: row r is in the block of point r / 10000. -/
theorem cover0_5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_5 _, ?_⟩
  rw [mem_blk0_5]
  obtain ⟨-, -, h0, h1, -⟩ := idx0 ⟨(i 0).val / 10000, by rw [hN]; omega⟩
  intro a
  match a with
  | ⟨0, _⟩ => show win0_5.index _ (0 : Fin 2) * 10000 ≤ (i 0).val ∧ (i 0).val < win0_5.index _ (0 : Fin 2) * 10000 + 10000; rw [h0]; show (i 0).val / 10000 * 10000 ≤ (i 0).val ∧ (i 0).val < (i 0).val / 10000 * 10000 + 10000; omega
  | ⟨1, _⟩ => show win0_5.index _ (1 : Fin 2) * 64 ≤ (i 1).val ∧ (i 1).val < win0_5.index _ (1 : Fin 2) * 64 + 64; rw [h1]; omega

/-- The output array after the region: `nodeArr` of the arrays as the region finds them. -/
theorem final0_5 (c : Dev nD) : (dat0 V c).arrAt 5 cfg0.N
    = nodeArr (V c main_arg2) (V c main_arg4) (V c main_v0) (V c main_arg6) (V c main_v1) :=
  (dat0 V c).arrAt_eq_of_cover 5 _ (fun t _ => flushed0_5 V c t) cover0_5

end Cert.KernelIdeal.Arrays

end
-- ==== Proof.EdgeArray.lean ====
/-
  The edge kernel's output array, as one function of the arrays the region finds.

  The grid has a hundred points; point t reads rows 12000·t … 12000·t + 11999 of the two gathered endpoint features and
  of the basis, and the whole of the four weights and four one-row biases, and writes back the same rows of the output.
  Each output row is the sum of the three input rows sent through the two two-layer maps, so the hundred written
  blocks are the restrictions of one array — `edgeArr` — and they tile it.
-/
import proofs.«120039_j12532714569875_1_alg».proof.Proof.Gen.KernelIdeal.Frame
import proofs.«120039_j12532714569875_1_alg».proof.Proof.KernelBody
import Idealize.ShloMosaic.Lib.Pipeline.Value

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem Idealize.ShloMosaic.ValueIdx Idealize.ShloMosaic.DenseRows
open Idealize.ShloMosaic.Pipeline (Dat)

/-- Every row of `gi + bs + gj` through the two-layer map with weights `a8`, `a10` and then the one with weights
    `a12`, `a14` (the biases one-row arrays). -/
def edgeArr (gi gj bs : Vec Ideal S1200000x64 .f32) (a8 : Vec Ideal S64x64 .f32) (b17 : Vec Ideal S1x64 .f32)
    (a10 : Vec Ideal S64x64 .f32) (b18 : Vec Ideal S1x64 .f32) (a12 : Vec Ideal S64x64 .f32) (b19 : Vec Ideal S1x64 .f32)
    (a14 : Vec Ideal S64x64 .f32) (b20 : Vec Ideal S1x64 .f32) : Vec Ideal S1200000x64 .f32 :=
  fun i => mlp (wOf a12) (bOf b19) (wOf a14) (bOf b20)
    (mlp (wOf a8) (bOf b17) (wOf a10) (bOf b18)
      (fun k => gi (ix2 (i 0 : Fin 1200000) k) + bs (ix2 (i 0 : Fin 1200000) k) + gj (ix2 (i 0 : Fin 1200000) k))) (i 1 : Fin 64)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row windows sit at block row t, the others at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_11.index t (0 : Fin 2) = t.val
    ∧ win1_11.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0 :=
  (by decide +kernel : ∀ t : Fin grid1.N, _)

/-- Window 0's block at point t is rows 12000·t … of its array. -/
theorem iblk1_0_apply (c : Dev nD) (t : Fin cfg1.N) (x : S12000x64.Idx) (k : S1200000x64.Idx)
    (hk0 : (k 0).val = 12000 * t.val + (x 0).val) (hk1 : (k 1).val = (x 1).val) :
    (iblk1 V c 0 t : Vec Ideal S12000x64 .f32) x = (V c main_v9 : Vec Ideal S1200000x64 .f32) k := by
  obtain ⟨h0, h1, -⟩ := idx1 t
  unfold iblk1
  rw [View.read_apply]
  show V c main_v9 _ = V c main_v9 _
  refine congrArg (V c main_v9) (funext fun a => Fin.ext ?_)
  match a with
  | ⟨0, _⟩ => show win1_0.index t 0 * 12000 + 1 * (x 0).val = (k 0).val; rw [h0, hk0]; omega
  | ⟨1, _⟩ => show win1_0.index t 1 * 64 + 1 * (x 1).val = (k 1).val; rw [h1, hk1]; omega

/-- Window 1's block at point t is rows 12000·t … of its array. -/
theorem iblk1_1_apply (c : Dev nD) (t : Fin cfg1.N) (x : S12000x64.Idx) (k : S1200000x64.Idx)
    (hk0 : (k 0).val = 12000 * t.val + (x 0).val) (hk1 : (k 1).val = (x 1).val) :
    (iblk1 V c 1 t : Vec Ideal S12000x64 .f32) x = (V c main_v16 : Vec Ideal S1200000x64 .f32) k := by
  obtain ⟨-, -, h0, h1, -⟩ := idx1 t
  unfold iblk1
  rw [View.read_apply]
  show V c main_v16 _ = V c main_v16 _
  refine congrArg (V c main_v16) (funext fun a => Fin.ext ?_)
  match a with
  | ⟨0, _⟩ => show win1_1.index t 0 * 12000 + 1 * (x 0).val = (k 0).val; rw [h0, hk0]; omega
  | ⟨1, _⟩ => show win1_1.index t 1 * 64 + 1 * (x 1).val = (k 1).val; rw [h1, hk1]; omega

/-- Window 2's block at point t is rows 12000·t … of its array. -/
theorem iblk1_2_apply (c : Dev nD) (t : Fin cfg1.N) (x : S12000x64.Idx) (k : S1200000x64.Idx)
    (hk0 : (k 0).val = 12000 * t.val + (x 0).val) (hk1 : (k 1).val = (x 1).val) :
    (iblk1 V c 2 t : Vec Ideal S12000x64 .f32) x = (V c main_arg3 : Vec Ideal S1200000x64 .f32) k := by
  obtain ⟨-, -, -, -, h0, h1, -⟩ := idx1 t
  unfold iblk1
  rw [View.read_apply]
  show V c main_arg3 _ = V c main_arg3 _
  refine congrArg (V c main_arg3) (funext fun a => Fin.ext ?_)
  match a with
  | ⟨0, _⟩ => show win1_2.index t 0 * 12000 + 1 * (x 0).val = (k 0).val; rw [h0, hk0]; omega
  | ⟨1, _⟩ => show win1_2.index t 1 * 64 + 1 * (x 1).val = (k 1).val; rw [h1, hk1]; omega

/-- Window 3's block is the whole of its array. -/
theorem iblk1_3_eq (c : Dev nD) (t : Fin cfg1.N) : (iblk1 V c 3 t : Vec Ideal S64x64 .f32) = V c main_arg8 := by
  obtain ⟨-, -, -, -, -, -, -, -, h0, h1, -⟩ := idx1 t
  funext x
  unfold iblk1
  rw [View.read_apply]
  show V c main_arg8 _ = V c main_arg8 _
  refine congrArg (V c main_arg8) (funext fun a => Fin.ext ?_)
  match a with
  | ⟨0, _⟩ => show win1_3.index t 0 * 64 + 1 * (x 0).val = (x 0).val; rw [h0]; omega
  | ⟨1, _⟩ => show win1_3.index t 1 * 64 + 1 * (x 1).val = (x 1).val; rw [h1]; omega

/-- Window 4's block is the whole of its array. -/
theorem iblk1_4_eq (c : Dev nD) (t : Fin cfg1.N) : (iblk1 V c 4 t : Vec Ideal S1x64 .f32) = V c main_v17 := by
  obtain ⟨-, -, -, -, -, -, -, -, -, -, h0, h1, -⟩ := idx1 t
  funext x
  unfold iblk1
  rw [View.read_apply]
  show V c main_v17 _ = V c main_v17 _
  refine congrArg (V c main_v17) (funext fun a => Fin.ext ?_)
  match a with
  | ⟨0, _⟩ => show win1_4.index t 0 * 1 + 1 * (x 0).val = (x 0).val; rw [h0]; omega
  | ⟨1, _⟩ => show win1_4.index t 1 * 64 + 1 * (x 1).val = (x 1).val; rw [h1]; omega

/-- Window 5's block is the whole of its array. -/
theorem iblk1_5_eq (c : Dev nD) (t : Fin cfg1.N) : (iblk1 V c 5 t : Vec Ideal S64x64 .f32) = V c main_arg10 := by
  obtain ⟨-, -, -, -, -, -, -, -, -, -, -, -, h0, h1, -⟩ := idx1 t
  funext x
  unfold iblk1
  rw [View.read_apply]
  show V c main_arg10 _ = V c main_arg10 _
  refine congrArg (V c main_arg10) (funext fun a => Fin.ext ?_)
  match a with
  | ⟨0, _⟩ => show win1_5.index t 0 * 64 + 1 * (x 0).val = (x 0).val; rw [h0]; omega
  | ⟨1, _⟩ => show win1_5.index t 1 * 64 + 1 * (x 1).val = (x 1).val; rw [h1]; omega

/-- Window 6's block is the whole of its array. -/
theorem iblk1_6_eq (c : Dev nD) (t : Fin cfg1.N) : (iblk1 V c 6 t : Vec Ideal S1x64 .f32) = V c main_v18 := by
  obtain ⟨-, -, -, -, -, -, -, -, -, -, -, -, -, -, h0, h1, -⟩ := idx1 t
  funext x
  unfold iblk1
  rw [View.read_apply]
  show V c main_v18 _ = V c main_v18 _
  refine congrArg (V c main_v18) (funext fun a => Fin.ext ?_)
  match a with
  | ⟨0, _⟩ => show win1_6.index t 0 * 1 + 1 * (x 0).val = (x 0).val; rw [h0]; omega
  | ⟨1, _⟩ => show win1_6.index t 1 * 64 + 1 * (x 1).val = (x 1).val; rw [h1]; omega

/-- Window 7's block is the whole of its array. -/
theorem iblk1_7_eq (c : Dev nD) (t : Fin cfg1.N) : (iblk1 V c 7 t : Vec Ideal S64x64 .f32) = V c main_arg12 := by
  obtain ⟨-, -, -, -, -, -, -, -, -, -, -, -, -, -, -, -, h0, h1, -⟩ := idx1 t
  funext x
  unfold iblk1
  rw [View.read_apply]
  show V c main_arg12 _ = V c main_arg12 _
  refine congrArg (V c main_arg12) (funext fun a => Fin.ext ?_)
  match a with
  | ⟨0, _⟩ => show win1_7.index t 0 * 64 + 1 * (x 0).val = (x 0).val; rw [h0]; omega
  | ⟨1, _⟩ => show win1_7.index t 1 * 64 + 1 * (x 1).val = (x 1).val; rw [h1]; omega

/-- Window 8's block is the whole of its array. -/
theorem iblk1_8_eq (c : Dev nD) (t : Fin cfg1.N) : (iblk1 V c 8 t : Vec Ideal S1x64 .f32) = V c main_v19 := by
  obtain ⟨-, -, -, -, -, -, -, -, -, -, -, -, -, -, -, -, -, -, h0, h1, -⟩ := idx1 t
  funext x
  unfold iblk1
  rw [View.read_apply]
  show V c main_v19 _ = V c main_v19 _
  refine congrArg (V c main_v19) (funext fun a => Fin.ext ?_)
  match a with
  | ⟨0, _⟩ => show win1_8.index t 0 * 1 + 1 * (x 0).val = (x 0).val; rw [h0]; omega
  | ⟨1, _⟩ => show win1_8.index t 1 * 64 + 1 * (x 1).val = (x 1).val; rw [h1]; omega

/-- Window 9's block is the whole of its array. -/
theorem iblk1_9_eq (c : Dev nD) (t : Fin cfg1.N) : (iblk1 V c 9 t : Vec Ideal S64x64 .f32) = V c main_arg14 := by
  obtain ⟨-, -, -, -, -, -, -, -, -, -, -, -, -, -, -, -, -, -, -, -, h0, h1, -⟩ := idx1 t
  funext x
  unfold iblk1
  rw [View.read_apply]
  show V c main_arg14 _ = V c main_arg14 _
  refine congrArg (V c main_arg14) (funext fun a => Fin.ext ?_)
  match a with
  | ⟨0, _⟩ => show win1_9.index t 0 * 64 + 1 * (x 0).val = (x 0).val; rw [h0]; omega
  | ⟨1, _⟩ => show win1_9.index t 1 * 64 + 1 * (x 1).val = (x 1).val; rw [h1]; omega

/-- Window 10's block is the whole of its array. -/
theorem iblk1_10_eq (c : Dev nD) (t : Fin cfg1.N) : (iblk1 V c 10 t : Vec Ideal S1x64 .f32) = V c main_v20 := by
  obtain ⟨-, -, -, -, -, -, -, -, -, -, -, -, -, -, -, -, -, -, -, -, -, -, h0, h1⟩ := idx1 t
  funext x
  unfold iblk1
  rw [View.read_apply]
  show V c main_v20 _ = V c main_v20 _
  refine congrArg (V c main_v20) (funext fun a => Fin.ext ?_)
  match a with
  | ⟨0, _⟩ => show win1_10.index t 0 * 1 + 1 * (x 0).val = (x 0).val; rw [h0]; omega
  | ⟨1, _⟩ => show win1_10.index t 1 * 64 + 1 * (x 1).val = (x 1).val; rw [h1]; omega

/-- The stored value at an entry of the block is `edgeArr` at the matching entry of the array, whatever the three
    row blocks are, as long as they are their arrays' rows 12000·t …. -/
theorem edge_block (gi gj bs : Vec Ideal S1200000x64 .f32) (x0 x1 x2 : Vec Ideal S12000x64 .f32) (x3 : Vec Ideal S64x64 .f32)
    (x4 : Vec Ideal S1x64 .f32) (x5 : Vec Ideal S64x64 .f32) (x6 : Vec Ideal S1x64 .f32) (x7 : Vec Ideal S64x64 .f32)
    (x8 : Vec Ideal S1x64 .f32) (x9 : Vec Ideal S64x64 .f32) (x10 : Vec Ideal S1x64 .f32) (t : Nat)
    (hx0 : ∀ (x : S12000x64.Idx) (k : S1200000x64.Idx), (k 0).val = 12000 * t + (x 0).val → (k 1).val = (x 1).val → x0 x = gi k)
    (hx1 : ∀ (x : S12000x64.Idx) (k : S1200000x64.Idx), (k 0).val = 12000 * t + (x 0).val → (k 1).val = (x 1).val → x1 x = gj k)
    (hx2 : ∀ (x : S12000x64.Idx) (k : S1200000x64.Idx), (k 0).val = 12000 * t + (x 0).val → (k 1).val = (x 1).val → x2 x = bs k)
    (j : S12000x64.Idx) (i : S1200000x64.Idx) (hi0 : (i 0).val = 12000 * t + (j 0).val) (hi1 : (i 1).val = (j 1).val) :
    k1_pay1 (F := Ideal) (k1_pay2 x9) (k1_pay3 x0 x2 x1 x3 x4 x5 x6 x7 x8) x10 j = edgeArr gi gj bs x3 x4 x5 x6 x7 x8 x9 x10 i := by
  obtain ⟨p, q, rfl⟩ : ∃ (p : Fin 12000) (q : Fin 64), j = ix2 p q := ⟨j 0, j 1, eq_ix2 j⟩
  rw [edge_pay_apply]
  unfold edgeArr
  have e1 : (i 1 : Fin 64) = q := Fin.ext hi1
  rw [e1]
  refine congrArg (fun v => mlp (wOf x7) (bOf x8) (wOf x9) (bOf x10) (mlp (wOf x3) (bOf x4) (wOf x5) (bOf x6) v) q) (funext fun k => ?_)
  rw [hx0 (ix2 p k) (ix2 (i 0 : Fin 1200000) k) hi0 rfl, hx1 (ix2 p k) (ix2 (i 0 : Fin 1200000) k) hi0 rfl,
    hx2 (ix2 p k) (ix2 (i 0 : Fin 1200000) k) hi0 rfl]

/-- What point t writes back is block t of `edgeArr` of the arrays as the region finds them. -/
theorem flushed1_11 (c : Dev nD) (t : Fin cfg1.N) :
    (dat1 V c).flushed 11 t = ((cfg1.win 11).blk t).view.read (Elt Ideal)
      (edgeArr (V c main_v9) (V c main_v16) (V c main_arg3) (V c main_arg8) (V c main_v17) (V c main_arg10) (V c main_v18)
        (V c main_arg12) (V c main_v19) (V c main_arg14) (V c main_v20)) := by
  show (cfg1.win 11).cut (grid1.coords t) ((dat1 V c).after 11 t) = _
  rw [after1_11]
  unfold out1_11
  rw [View.canon_unit_zero hz1]
  simp only [View.ld_unit_zero (S := S12000x64) hz1, View.ld_unit_zero (S := S64x64) hz1, View.ld_unit_zero (S := S1x64) hz1]
  rw [iblk1_3_eq, iblk1_4_eq, iblk1_5_eq, iblk1_6_eq, iblk1_7_eq, iblk1_8_eq, iblk1_9_eq, iblk1_10_eq]
  obtain ⟨-, -, -, -, -, -, h0, h1, -⟩ := idx1 t
  funext j
  rw [View.read_apply]
  refine edge_block (V c main_v9) (V c main_v16) (V c main_arg3) (iblk1 V c 0 t) (iblk1 V c 1 t) (iblk1 V c 2 t) _ _ _ _ _ _ _ _ t.val
    (fun x k hk0 hk1 => iblk1_0_apply V c t x k hk0 hk1) (fun x k hk0 hk1 => iblk1_1_apply V c t x k hk0 hk1)
    (fun x k hk0 hk1 => iblk1_2_apply V c t x k hk0 hk1) j _ ?_ ?_
  · show win1_11.index t 0 * 12000 + 1 * (j 0).val = 12000 * t.val + (j 0).val; rw [h0]; omega
  · show win1_11.index t 1 * 64 + 1 * (j 1).val = (j 1).val; rw [h1]; omega

/-- An index of the array is in point t's block iff each coordinate is in the block's range on its axis. -/
theorem mem_blk1_11 (t : Fin cfg1.N) (i : S1200000x64.Idx) :
    i ∈ ((cfg1.win 11).blk t).view.set ↔ ∀ a : Fin 2, win1_11.index t a * S12000x64.size a ≤ (i a).val ∧ (i a).val < win1_11.index t a * S12000x64.size a + S12000x64.size a := by
  show i ∈ ((View.whole main_v21).slice (win1_11.rect t)).set ↔ _
  rw [View.set_slice_whole, Rect.mem_set_unit]
  exact Iff.rfl

/-- The hundred blocks tile the array: row r is in the block of point r / 12000. -/
theorem cover1_11 (i : S1200000x64.Idx) : ∃ t : Fin cfg1.N, (cfg1.win 11).flush t = true ∧ i ∈ ((cfg1.win 11).blk t).view.set := by
  have hi0 : (i 0).val < 1200000 := (i 0).isLt
  have hi1 : (i 1).val < 64 := (i 1).isLt
  have hN : cfg1.N = 100 := N_1
  refine ⟨⟨(i 0).val / 12000, by rw [hN]; omega⟩, flush1_11 _, ?_⟩
  rw [mem_blk1_11]
  obtain ⟨-, -, -, -, -, -, h0, h1, -⟩ := idx1 ⟨(i 0).val / 12000, by rw [hN]; omega⟩
  intro a
  match a with
  | ⟨0, _⟩ => show win1_11.index _ (0 : Fin 2) * 12000 ≤ (i 0).val ∧ (i 0).val < win1_11.index _ (0 : Fin 2) * 12000 + 12000; rw [h0]; show (i 0).val / 12000 * 12000 ≤ (i 0).val ∧ (i 0).val < (i 0).val / 12000 * 12000 + 12000; omega
  | ⟨1, _⟩ => show win1_11.index _ (1 : Fin 2) * 64 ≤ (i 1).val ∧ (i 1).val < win1_11.index _ (1 : Fin 2) * 64 + 64; rw [h1]; omega

/-- The output array after the region: `edgeArr` of the arrays as the region finds them. -/
theorem final1_11 (c : Dev nD) : (dat1 V c).arrAt 11 cfg1.N
    = edgeArr (V c main_v9) (V c main_v16) (V c main_arg3) (V c main_arg8) (V c main_v17) (V c main_arg10) (V c main_v18)
        (V c main_arg12) (V c main_v19) (V c main_arg14) (V c main_v20) :=
  (dat1 V c).arrAt_eq_of_cover 11 _ (fun t _ => flushed1_11 V c t) cover1_11

end Cert.KernelIdeal.Arrays

end
-- ==== Proof.KernelValue.lean ====
/-
  The kernel program's result as one function of its arguments.

  Between the launch and the return the buffers' contents are a fold through @main: the host stretch before the node
  region reshapes two biases; the node region leaves `nodeArr` in its output array; the next host stretch normalises
  the two index vectors, gathers the node rows at them and reshapes four biases; the edge region leaves `edgeArr` in
  its output array; the last host stretch adds the edge rows into their first endpoint's node row. No argument array is
  written on the way. Read back, the result buffer holds the scatter-add of `edgeArr` of the two gathers of `nodeArr`.
-/
import proofs.«120039_j12532714569875_1_alg».proof.Proof.NodeArray
import proofs.«120039_j12532714569875_1_alg».proof.Proof.EdgeArray
import Idealize.ShloMosaic.Lib.StableHlo.Run

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem Idealize.ShloMosaic.ValueIdx Idealize.ShloMosaic.DenseRows
open Idealize.ShloMosaic.StableHlo

variable (m : (ℓ : Loc nD τ sig) → Buf (Elt Ideal) ℓ) (ρ : Dev nD → PrngReg)

/-! ## At the node region's entry -/

theorem V1_main_arg2 (c : Dev nD) : V1 m ρ c main_arg2 = (m ((c : Thread nD τ).loc main_arg2)) := by
  show StableHlo.after hostOps0 (W0 m ρ c) (Proc.devRef .tc main_arg2) = _
  after_results

theorem V1_main_arg4 (c : Dev nD) : V1 m ρ c main_arg4 = (m ((c : Thread nD τ).loc main_arg4)) := by
  show StableHlo.after hostOps0 (W0 m ρ c) (Proc.devRef .tc main_arg4) = _
  after_results

theorem V1_main_arg6 (c : Dev nD) : V1 m ρ c main_arg6 = (m ((c : Thread nD τ).loc main_arg6)) := by
  show StableHlo.after hostOps0 (W0 m ρ c) (Proc.devRef .tc main_arg6) = _
  after_results

/-- The bias as the one-row matrix the region reads. -/
theorem V1_main_v0 (c : Dev nD) : V1 m ρ c main_v0 = (shapeCast S1x64 (m ((c : Thread nD τ).loc main_arg5)) shapeCasts_S64_S1x64) := by
  show StableHlo.after hostOps0 (W0 m ρ c) (Proc.devRef .tc main_v0) = _
  after_results
  rfl

/-- The bias as the one-row matrix the region reads. -/
theorem V1_main_v1 (c : Dev nD) : V1 m ρ c main_v1 = (shapeCast S1x64 (m ((c : Thread nD τ).loc main_arg7)) shapeCasts_S64_S1x64) := by
  show StableHlo.after hostOps0 (W0 m ρ c) (Proc.devRef .tc main_v1) = _
  after_results
  rfl

/-! ## At the node region's exit -/

/-- The node region's output array holds `nodeArr` of the arguments. -/
theorem W2_main_v2 (c : Dev nD) : W2 m ρ c (Proc.devRef .tc main_v2) = nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64) := by
  refine (W2_arr m ρ c 5).trans ((final0_5 (V1 m ρ) c).trans ?_)
  rw [V1_main_arg2, V1_main_arg4, V1_main_arg6, V1_main_v0, V1_main_v1]

theorem W2_main_arg0 (c : Dev nD) : W2 m ρ c (Proc.devRef .tc main_arg0) = (m ((c : Thread nD τ).loc main_arg0)) := by
  rw [W2_of_ne m ρ c main_arg0 (by decide)]
  show StableHlo.after hostOps0 (W0 m ρ c) (Proc.devRef .tc main_arg0) = _
  after_results

theorem W2_main_arg1 (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  after_results

theorem W2_main_arg3 (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  after_results

theorem W2_main_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results

theorem W2_main_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results

theorem W2_main_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results

theorem W2_main_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results

theorem W2_main_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results

theorem W2_main_arg13 (c : Dev nD) : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results

theorem W2_main_arg14 (c : Dev nD) : W2 m ρ c (Proc.devRef .tc main_arg14) = (m ((c : Thread nD τ).loc main_arg14)) := by
  rw [W2_of_ne m ρ c main_arg14 (by decide)]
  show StableHlo.after hostOps0 (W0 m ρ c) (Proc.devRef .tc main_arg14) = _
  after_results

theorem W2_main_arg15 (c : Dev nD) : W2 m ρ c (Proc.devRef .tc main_arg15) = (m ((c : Thread nD τ).loc main_arg15)) := by
  rw [W2_of_ne m ρ c main_arg15 (by decide)]
  show StableHlo.after hostOps0 (W0 m ρ c) (Proc.devRef .tc main_arg15) = _
  after_results

/-! ## At the edge region's entry -/

/-- The node rows gathered at the edges' first endpoints. -/
theorem V3_main_v9 (c : Dev nD) : V3 m ρ c main_v9 = Host.gather gather_S100000x64_S1200000x1_S1200000x64_1_0_n_n_0_1_164 (nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64)) (broadcastInDim S1200000x1 ![0] bcast_S1200000_S1200000x1_0 (select (cmpi .slt (m ((c : Thread nD τ).loc main_arg0)) (broadcastInDim S1200000 ![] bcast_S_S1200000 (constantI S_ 32 0#32))) (addi (m ((c : Thread nD τ).loc main_arg0)) (broadcastInDim S1200000 ![] bcast_S_S1200000 (constantI S_ 32 100000#32))) (m ((c : Thread nD τ).loc main_arg0)))) := by
  show StableHlo.after hostOps1 (W2 m ρ c) (Proc.devRef .tc main_v9) = _
  after_results
  rw [W2_main_v2, W2_main_arg0]

/-- The node rows gathered at the edges' second endpoints. -/
theorem V3_main_v16 (c : Dev nD) : V3 m ρ c main_v16 = Host.gather gather_S100000x64_S1200000x1_S1200000x64_1_0_n_n_0_1_164 (nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64)) (broadcastInDim S1200000x1 ![0] bcast_S1200000_S1200000x1_0 (select (cmpi .slt (m ((c : Thread nD τ).loc main_arg1)) (broadcastInDim S1200000 ![] bcast_S_S1200000 (constantI S_ 32 0#32))) (addi (m ((c : Thread nD τ).loc main_arg1)) (broadcastInDim S1200000 ![] bcast_S_S1200000 (constantI S_ 32 100000#32))) (m ((c : Thread nD τ).loc main_arg1)))) := by
  show StableHlo.after hostOps1 (W2 m ρ c) (Proc.devRef .tc main_v16) = _
  after_results_simp
  rw [W2_main_v2, W2_main_arg1]

theorem V3_main_arg3 (c : Dev nD) : V3 m ρ c main_arg3 = (m ((c : Thread nD τ).loc main_arg3)) := by
  show StableHlo.after hostOps1 (W2 m ρ c) (Proc.devRef .tc main_arg3) = _
  after_results_simp
  rw [W2_main_arg3]

theorem V3_main_arg8 (c : Dev nD) : V3 m ρ c main_arg8 = (m ((c : Thread nD τ).loc main_arg8)) := by
  show StableHlo.after hostOps1 (W2 m ρ c) (Proc.devRef .tc main_arg8) = _
  after_results_simp
  rw [W2_main_arg8]

theorem V3_main_arg10 (c : Dev nD) : V3 m ρ c main_arg10 = (m ((c : Thread nD τ).loc main_arg10)) := by
  show StableHlo.after hostOps1 (W2 m ρ c) (Proc.devRef .tc main_arg10) = _
  after_results_simp
  rw [W2_main_arg10]

theorem V3_main_arg12 (c : Dev nD) : V3 m ρ c main_arg12 = (m ((c : Thread nD τ).loc main_arg12)) := by
  show StableHlo.after hostOps1 (W2 m ρ c) (Proc.devRef .tc main_arg12) = _
  after_results_simp
  rw [W2_main_arg12]

theorem V3_main_arg14 (c : Dev nD) : V3 m ρ c main_arg14 = (m ((c : Thread nD τ).loc main_arg14)) := by
  show StableHlo.after hostOps1 (W2 m ρ c) (Proc.devRef .tc main_arg14) = _
  after_results_simp
  rw [W2_main_arg14]

/-- The bias as the one-row matrix the region reads. -/
theorem V3_main_v17 (c : Dev nD) : V3 m ρ c main_v17 = (shapeCast S1x64 (m ((c : Thread nD τ).loc main_arg9)) shapeCasts_S64_S1x64) := by
  show StableHlo.after hostOps1 (W2 m ρ c) (Proc.devRef .tc main_v17) = _
  after_results_simp
  rw [W2_main_arg9]
  rfl

/-- The bias as the one-row matrix the region reads. -/
theorem V3_main_v18 (c : Dev nD) : V3 m ρ c main_v18 = (shapeCast S1x64 (m ((c : Thread nD τ).loc main_arg11)) shapeCasts_S64_S1x64) := by
  show StableHlo.after hostOps1 (W2 m ρ c) (Proc.devRef .tc main_v18) = _
  after_results_simp
  rw [W2_main_arg11]
  rfl

/-- The bias as the one-row matrix the region reads. -/
theorem V3_main_v19 (c : Dev nD) : V3 m ρ c main_v19 = (shapeCast S1x64 (m ((c : Thread nD τ).loc main_arg13)) shapeCasts_S64_S1x64) := by
  show StableHlo.after hostOps1 (W2 m ρ c) (Proc.devRef .tc main_v19) = _
  after_results_simp
  rw [W2_main_arg13]
  rfl

/-- The bias as the one-row matrix the region reads. -/
theorem V3_main_v20 (c : Dev nD) : V3 m ρ c main_v20 = (shapeCast S1x64 (m ((c : Thread nD τ).loc main_arg15)) shapeCasts_S64_S1x64) := by
  show StableHlo.after hostOps1 (W2 m ρ c) (Proc.devRef .tc main_v20) = _
  after_results_simp
  rw [W2_main_arg15]
  rfl

/-! ## At the edge region's exit, and the result -/

/-- The edge region's output array holds `edgeArr` of the gathered node rows and the arguments. -/
theorem W4_main_v21 (c : Dev nD) : W4 m ρ c (Proc.devRef .tc main_v21)
    = edgeArr (Host.gather gather_S100000x64_S1200000x1_S1200000x64_1_0_n_n_0_1_164 (nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64)) (broadcastInDim S1200000x1 ![0] bcast_S1200000_S1200000x1_0 (select (cmpi .slt (m ((c : Thread nD τ).loc main_arg0)) (broadcastInDim S1200000 ![] bcast_S_S1200000 (constantI S_ 32 0#32))) (addi (m ((c : Thread nD τ).loc main_arg0)) (broadcastInDim S1200000 ![] bcast_S_S1200000 (constantI S_ 32 100000#32))) (m ((c : Thread nD τ).loc main_arg0))))) (Host.gather gather_S100000x64_S1200000x1_S1200000x64_1_0_n_n_0_1_164 (nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64)) (broadcastInDim S1200000x1 ![0] bcast_S1200000_S1200000x1_0 (select (cmpi .slt (m ((c : Thread nD τ).loc main_arg1)) (broadcastInDim S1200000 ![] bcast_S_S1200000 (constantI S_ 32 0#32))) (addi (m ((c : Thread nD τ).loc main_arg1)) (broadcastInDim S1200000 ![] bcast_S_S1200000 (constantI S_ 32 100000#32))) (m ((c : Thread nD τ).loc main_arg1))))) (m ((c : Thread nD τ).loc main_arg3)) (m ((c : Thread nD τ).loc main_arg8)) (shapeCast S1x64 (m ((c : Thread nD τ).loc main_arg9)) shapeCasts_S64_S1x64) (m ((c : Thread nD τ).loc main_arg10)) (shapeCast S1x64 (m ((c : Thread nD τ).loc main_arg11)) shapeCasts_S64_S1x64) (m ((c : Thread nD τ).loc main_arg12)) (shapeCast S1x64 (m ((c : Thread nD τ).loc main_arg13)) shapeCasts_S64_S1x64) (m ((c : Thread nD τ).loc main_arg14)) (shapeCast S1x64 (m ((c : Thread nD τ).loc main_arg15)) shapeCasts_S64_S1x64) := by
  refine (W4_arr m ρ c 11).trans ((final1_11 (V3 m ρ) c).trans ?_)
  rw [V3_main_v9, V3_main_v16, V3_main_arg3, V3_main_arg8, V3_main_v17, V3_main_arg10, V3_main_v18, V3_main_arg12, V3_main_v19,
    V3_main_arg14, V3_main_v20]

theorem W4_main_arg0 (c : Dev nD) : W4 m ρ c (Proc.devRef .tc main_arg0) = (m ((c : Thread nD τ).loc main_arg0)) := by
  rw [W4_of_ne m ρ c main_arg0 (by decide)]
  show StableHlo.after hostOps1 (W2 m ρ c) (Proc.devRef .tc main_arg0) = _
  after_results_simp
  rw [W2_main_arg0]

/-- The result buffer at the last boundary: the edge rows added into their first endpoint's node row. -/
theorem W5_main_v24 (c : Dev nD) : W5 m ρ c (Proc.devRef .tc main_v24)
    = Host.scatterAdd (F := Ideal) scatter_S100000x64_S1200000x1_S1200000x64_1_0_0_1
        (broadcastInDim S100000x64 ![] bcast_S_S100000x64 (constant (F := Ideal) S_ .f32 0x00000000#32))
        (broadcastInDim S1200000x1 ![0] bcast_S1200000_S1200000x1_0 (m ((c : Thread nD τ).loc main_arg0)))
        (edgeArr (Host.gather gather_S100000x64_S1200000x1_S1200000x64_1_0_n_n_0_1_164 (nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64)) (broadcastInDim S1200000x1 ![0] bcast_S1200000_S1200000x1_0 (select (cmpi .slt (m ((c : Thread nD τ).loc main_arg0)) (broadcastInDim S1200000 ![] bcast_S_S1200000 (constantI S_ 32 0#32))) (addi (m ((c : Thread nD τ).loc main_arg0)) (broadcastInDim S1200000 ![] bcast_S_S1200000 (constantI S_ 32 100000#32))) (m ((c : Thread nD τ).loc main_arg0))))) (Host.gather gather_S100000x64_S1200000x1_S1200000x64_1_0_n_n_0_1_164 (nodeArr (m ((c : Thread nD τ).loc main_arg2)) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64)) (broadcastInDim S1200000x1 ![0] bcast_S1200000_S1200000x1_0 (select (cmpi .slt (m ((c : Thread nD τ).loc main_arg1)) (broadcastInDim S1200000 ![] bcast_S_S1200000 (constantI S_ 32 0#32))) (addi (m ((c : Thread nD τ).loc main_arg1)) (broadcastInDim S1200000 ![] bcast_S_S1200000 (constantI S_ 32 100000#32))) (m ((c : Thread nD τ).loc main_arg1))))) (m ((c : Thread nD τ).loc main_arg3)) (m ((c : Thread nD τ).loc main_arg8)) (shapeCast S1x64 (m ((c : Thread nD τ).loc main_arg9)) shapeCasts_S64_S1x64) (m ((c : Thread nD τ).loc main_arg10)) (shapeCast S1x64 (m ((c : Thread nD τ).loc main_arg11)) shapeCasts_S64_S1x64) (m ((c : Thread nD τ).loc main_arg12)) (shapeCast S1x64 (m ((c : Thread nD τ).loc main_arg13)) shapeCasts_S64_S1x64) (m ((c : Thread nD τ).loc main_arg14)) (shapeCast S1x64 (m ((c : Thread nD τ).loc main_arg15)) shapeCasts_S64_S1x64)) := by
  show StableHlo.after hostOps2 (W4 m ρ c) (Proc.devRef .tc main_v24) = _
  after_results
  rw [W4_main_arg0, W4_main_v21]

end Cert.KernelIdeal.Arrays

end
-- ==== Proof.KernelRun.lean ====
/-
  The kernel program's run with its result named.

  The one-row biases the regions read are reshapes of the bias vectors, so as functions of the column they are the
  vectors themselves; with that, `nodeArr` and `edgeArr` are row maps (`rowwise`) of the plain argument arrays, and the
  result is the scatter-add, into the first endpoints' node rows, of every edge row  gather(i) + basis + gather(j)  sent
  through the two two-layer maps, the gathers taken of the node rows sent through theirs.
-/
import proofs.«120039_j12532714569875_1_alg».proof.Proof.KernelValue
import proofs.«120039_j12532714569875_1_alg».proof.Proof.NamedRun

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem Idealize.ShloMosaic.ValueIdx Idealize.ShloMosaic.DenseRows

/-- A bias vector reshaped to one row, read at its column, is the vector there. -/
theorem bOf_reshape (a : FVec Ideal S64 .f32) : bOf (shapeCast S1x64 a shapeCasts_S64_S1x64) = vFn a := by
  funext q
  refine shapeCast_apply a shapeCasts_S64_S1x64 (ix2 (0 : Fin 1) q) (ix1 q) ?_
  rw [Shape.rowMajor_val_two, Shape.rowMajor_val_one]
  show q.val = 0 * 64 + q.val
  omega

/-- `nodeArr` over reshaped biases is the two-layer row map on every row of the node features. -/
theorem nodeArr_eq (a2 : FVec Ideal S100000x64 .f32) (a4 : FVec Ideal S64x64 .f32) (a5 : FVec Ideal S64 .f32)
    (a6 : FVec Ideal S64x64 .f32) (a7 : FVec Ideal S64 .f32) :
    nodeArr a2 a4 (shapeCast S1x64 a5 shapeCasts_S64_S1x64) a6 (shapeCast S1x64 a7 shapeCasts_S64_S1x64)
      = rowwise (mlp (wFn a4) (vFn a5) (wFn a6) (vFn a7)) a2 := by
  unfold nodeArr
  rw [bOf_reshape, bOf_reshape]
  rfl

/-- `edgeArr` over reshaped biases is the two two-layer row maps on every row of the sum of its three arrays. -/
theorem edgeArr_eq (gi gj bs : FVec Ideal S1200000x64 .f32) (a8 : FVec Ideal S64x64 .f32) (a9 : FVec Ideal S64 .f32)
    (a10 : FVec Ideal S64x64 .f32) (a11 : FVec Ideal S64 .f32) (a12 : FVec Ideal S64x64 .f32) (a13 : FVec Ideal S64 .f32)
    (a14 : FVec Ideal S64x64 .f32) (a15 : FVec Ideal S64 .f32) :
    edgeArr gi gj bs a8 (shapeCast S1x64 a9 shapeCasts_S64_S1x64) a10 (shapeCast S1x64 a11 shapeCasts_S64_S1x64)
        a12 (shapeCast S1x64 a13 shapeCasts_S64_S1x64) a14 (shapeCast S1x64 a15 shapeCasts_S64_S1x64)
      = rowwise (fun v => mlp (wFn a12) (vFn a13) (wFn a14) (vFn a15) (mlp (wFn a8) (vFn a9) (wFn a10) (vFn a11) v))
          (addf (addf gi bs) gj) := by
  unfold edgeArr
  rw [bOf_reshape, bOf_reshape, bOf_reshape, bOf_reshape]
  rfl

variable (m : (ℓ : Loc nD τ sig) → Buf (Elt Ideal) ℓ) (ρ : Dev nD → PrngReg)

/-- The result as a function of the launch memory's argument arrays. -/
def kout (c : Dev nD) : Buf (Elt Ideal) ((c.tc : Thread nD τ).loc main_v24) :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 (m ((c : Thread nD τ).loc main_arg0)))
    (rowwise (fun v => mlp (wFn (φ := .f32) (m ((c : Thread nD τ).loc main_arg12))) (vFn (m ((c : Thread nD τ).loc main_arg13))) (wFn (φ := .f32) (m ((c : Thread nD τ).loc main_arg14))) (vFn (m ((c : Thread nD τ).loc main_arg15))) (mlp (wFn (φ := .f32) (m ((c : Thread nD τ).loc main_arg8))) (vFn (m ((c : Thread nD τ).loc main_arg9))) (wFn (φ := .f32) (m ((c : Thread nD τ).loc main_arg10))) (vFn (m ((c : Thread nD τ).loc main_arg11))) v))
      (addf (addf (Host.gather gather_S100000x64_S1200000x1_S1200000x64_1_0_n_n_0_1_164 (rowwise (mlp (wFn (φ := .f32) (m ((c : Thread nD τ).loc main_arg4))) (vFn (m ((c : Thread nD τ).loc main_arg5))) (wFn (φ := .f32) (m ((c : Thread nD τ).loc main_arg6))) (vFn (m ((c : Thread nD τ).loc main_arg7)))) (m ((c : Thread nD τ).loc main_arg2))) (broadcastInDim S1200000x1 ![0] bcast_S1200000_S1200000x1_0 (select (cmpi .slt (m ((c : Thread nD τ).loc main_arg0)) (broadcastInDim S1200000 ![] bcast_S_S1200000 (constantI S_ 32 0#32))) (addi (m ((c : Thread nD τ).loc main_arg0)) (broadcastInDim S1200000 ![] bcast_S_S1200000 (constantI S_ 32 100000#32))) (m ((c : Thread nD τ).loc main_arg0))))) (m ((c : Thread nD τ).loc main_arg3))) (Host.gather gather_S100000x64_S1200000x1_S1200000x64_1_0_n_n_0_1_164 (rowwise (mlp (wFn (φ := .f32) (m ((c : Thread nD τ).loc main_arg4))) (vFn (m ((c : Thread nD τ).loc main_arg5))) (wFn (φ := .f32) (m ((c : Thread nD τ).loc main_arg6))) (vFn (m ((c : Thread nD τ).loc main_arg7)))) (m ((c : Thread nD τ).loc main_arg2))) (broadcastInDim S1200000x1 ![0] bcast_S1200000_S1200000x1_0 (select (cmpi .slt (m ((c : Thread nD τ).loc main_arg1)) (broadcastInDim S1200000 ![] bcast_S_S1200000 (constantI S_ 32 0#32))) (addi (m ((c : Thread nD τ).loc main_arg1)) (broadcastInDim S1200000 ![] bcast_S_S1200000 (constantI S_ 32 100000#32))) (m ((c : Thread nD τ).loc main_arg1)))))))

/-- Every weakly fair execution terminates with the result buffer at `kout` and the arguments unchanged. -/
theorem run : θ_run defs (onTc (τ := τ) (main (F := Ideal))) ⟨m, fun _ => 0, ρ⟩ (fun r => ∀ c : Dev nD,
      r.2.mem ((c.tc : Thread nD τ).loc main_v24) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans ((W5_main_v24 m ρ c).trans (by
      rw [nodeArr_eq, edgeArr_eq]; rfl)), (h c).2⟩)
    (Cert.KernelIdeal.Named.run_named m ρ)

end Cert.KernelIdeal.Arrays

end
-- ==== Proof.RefValue.lean ====
/-
  The reference's result as one function of its arguments.

  The host program sends every node-feature row through two dense layers with tanh between them, gathers the rows at
  the two endpoint indices of every edge, adds endpoint, basis and endpoint rows entry by entry, sends every such row
  through two more two-layer maps, and adds the edge rows into their first endpoint's node row. Each two-layer stretch
  of host operations is the row map `mlp` on every row; the gathers and the final scatter-add stay as they are printed.
-/
import proofs.«120039_j12532714569875_1_alg».proof.Proof.Gen.ReferenceIdeal.Run
import proofs.«120039_j12532714569875_1_alg».proof.Proof.LibDenseRows

noncomputable section

namespace Cert.ReferenceIdeal.RefValue

open Cert.ReferenceIdeal Cert.ReferenceIdeal.Gen Idealize.ShloMosaic Idealize.ShloMosaic.ValueIdx Idealize.ShloMosaic.DenseRows

/-- The node stretch: two dense layers with tanh between, on the 100000 node rows. -/
theorem node_eq (a2 : FVec Ideal S100000x64 .f32) (a4 : FVec Ideal S64x64 .f32) (a5 : FVec Ideal S64 .f32)
    (a6 : FVec Ideal S64x64 .f32) (a7 : FVec Ideal S64 .f32) :
    addf (Host.dotGeneral dot_S100000x64_S64x64_S100000x64_1_0_0_1_n_n none (Host.tanh (addf (Host.dotGeneral dot_S100000x64_S64x64_S100000x64_1_0_0_1_n_n none a2 a4) (broadcastInDim S100000x64 ![0, 1] bcast_S1x64_S100000x64_0_1 (broadcastInDim S1x64 ![1] bcast_S64_S1x64_1 a5)))) a6) (broadcastInDim S100000x64 ![0, 1] bcast_S1x64_S100000x64_0_1 (broadcastInDim S1x64 ![1] bcast_S64_S1x64_1 a7))
      = rowwise (mlp (wFn a4) (vFn a5) (wFn a6) (vFn a7)) a2 :=
  host_mlp_eq 100000 64 64 64 a2 a4 a5 a6 a7 _ _ _ _

/-- An edge stretch: two dense layers with tanh between, on the 1200000 edge rows. -/
theorem edge_eq (x : FVec Ideal S1200000x64 .f32) (w1 : FVec Ideal S64x64 .f32) (b1 : FVec Ideal S64 .f32)
    (w2 : FVec Ideal S64x64 .f32) (b2 : FVec Ideal S64 .f32) :
    addf (Host.dotGeneral dot_S1200000x64_S64x64_S1200000x64_1_0_0_1_n_n none (Host.tanh (addf (Host.dotGeneral dot_S1200000x64_S64x64_S1200000x64_1_0_0_1_n_n none x w1) (broadcastInDim S1200000x64 ![0, 1] bcast_S1x64_S1200000x64_0_1 (broadcastInDim S1x64 ![1] bcast_S64_S1x64_1 b1)))) w2) (broadcastInDim S1200000x64 ![0, 1] bcast_S1x64_S1200000x64_0_1 (broadcastInDim S1x64 ![1] bcast_S64_S1x64_1 b2))
      = rowwise (mlp (wFn w1) (vFn b1) (wFn w2) (vFn b2)) x :=
  host_mlp_eq 1200000 64 64 64 x w1 b1 w2 b2 _ _ _ _

/-- The whole result term of the reference's run. -/
theorem result_eq (a0 a1 : IVec S1200000 32) (a2 : FVec Ideal S100000x64 .f32) (a3 : FVec Ideal S1200000x64 .f32)
    (a4 : FVec Ideal S64x64 .f32) (a5 : FVec Ideal S64 .f32) (a6 : FVec Ideal S64x64 .f32) (a7 : FVec Ideal S64 .f32)
    (a8 : FVec Ideal S64x64 .f32) (a9 : FVec Ideal S64 .f32) (a10 : FVec Ideal S64x64 .f32) (a11 : FVec Ideal S64 .f32)
    (a12 : FVec Ideal S64x64 .f32) (a13 : FVec Ideal S64 .f32) (a14 : FVec Ideal S64x64 .f32) (a15 : FVec Ideal S64 .f32) :
    Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 a0) (addf (Host.dotGeneral dot_S1200000x64_S64x64_S1200000x64_1_0_0_1_n_n none (Host.tanh (addf (Host.dotGeneral dot_S1200000x64_S64x64_S1200000x64_1_0_0_1_n_n none (addf (Host.dotGeneral dot_S1200000x64_S64x64_S1200000x64_1_0_0_1_n_n none (Host.tanh (addf (Host.dotGeneral dot_S1200000x64_S64x64_S1200000x64_1_0_0_1_n_n none (addf (addf (Host.gather gather_S100000x64_S1200000x1_S1200000x64_1_0_n_n_0_1_164 (addf (Host.dotGeneral dot_S100000x64_S64x64_S100000x64_1_0_0_1_n_n none (Host.tanh (addf (Host.dotGeneral dot_S100000x64_S64x64_S100000x64_1_0_0_1_n_n none a2 a4) (broadcastInDim S100000x64 ![0, 1] bcast_S1x64_S100000x64_0_1 (broadcastInDim S1x64 ![1] bcast_S64_S1x64_1 a5)))) a6) (broadcastInDim S100000x64 ![0, 1] bcast_S1x64_S100000x64_0_1 (broadcastInDim S1x64 ![1] bcast_S64_S1x64_1 a7))) (broadcastInDim S1200000x1 ![0] bcast_S1200000_S1200000x1_0 (select (cmpi .slt a0 (broadcastInDim S1200000 ![] bcast_S_S1200000 (constantI S_ 32 0#32))) (addi a0 (broadcastInDim S1200000 ![] bcast_S_S1200000 (constantI S_ 32 100000#32))) a0))) a3) (Host.gather gather_S100000x64_S1200000x1_S1200000x64_1_0_n_n_0_1_164 (addf (Host.dotGeneral dot_S100000x64_S64x64_S100000x64_1_0_0_1_n_n none (Host.tanh (addf (Host.dotGeneral dot_S100000x64_S64x64_S100000x64_1_0_0_1_n_n none a2 a4) (broadcastInDim S100000x64 ![0, 1] bcast_S1x64_S100000x64_0_1 (broadcastInDim S1x64 ![1] bcast_S64_S1x64_1 a5)))) a6) (broadcastInDim S100000x64 ![0, 1] bcast_S1x64_S100000x64_0_1 (broadcastInDim S1x64 ![1] bcast_S64_S1x64_1 a7))) (broadcastInDim S1200000x1 ![0] bcast_S1200000_S1200000x1_0 (select (cmpi .slt a1 (broadcastInDim S1200000 ![] bcast_S_S1200000 (constantI S_ 32 0#32))) (addi a1 (broadcastInDim S1200000 ![] bcast_S_S1200000 (constantI S_ 32 100000#32))) a1)))) a8) (broadcastInDim S1200000x64 ![0, 1] bcast_S1x64_S1200000x64_0_1 (broadcastInDim S1x64 ![1] bcast_S64_S1x64_1 a9)))) a10) (broadcastInDim S1200000x64 ![0, 1] bcast_S1x64_S1200000x64_0_1 (broadcastInDim S1x64 ![1] bcast_S64_S1x64_1 a11))) a12) (broadcastInDim S1200000x64 ![0, 1] bcast_S1x64_S1200000x64_0_1 (broadcastInDim S1x64 ![1] bcast_S64_S1x64_1 a13)))) a14) (broadcastInDim S1200000x64 ![0, 1] bcast_S1x64_S1200000x64_0_1 (broadcastInDim S1x64 ![1] bcast_S64_S1x64_1 a15)))
      = Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 a0)
        (rowwise (fun v => mlp (wFn a12) (vFn a13) (wFn a14) (vFn a15) (mlp (wFn a8) (vFn a9) (wFn a10) (vFn a11) v)) (addf (addf (Host.gather gather_S100000x64_S1200000x1_S1200000x64_1_0_n_n_0_1_164 (rowwise (mlp (wFn a4) (vFn a5) (wFn a6) (vFn a7)) a2) (broadcastInDim S1200000x1 ![0] bcast_S1200000_S1200000x1_0 (select (cmpi .slt a0 (broadcastInDim S1200000 ![] bcast_S_S1200000 (constantI S_ 32 0#32))) (addi a0 (broadcastInDim S1200000 ![] bcast_S_S1200000 (constantI S_ 32 100000#32))) a0))) a3) (Host.gather gather_S100000x64_S1200000x1_S1200000x64_1_0_n_n_0_1_164 (rowwise (mlp (wFn a4) (vFn a5) (wFn a6) (vFn a7)) a2) (broadcastInDim S1200000x1 ![0] bcast_S1200000_S1200000x1_0 (select (cmpi .slt a1 (broadcastInDim S1200000 ![] bcast_S_S1200000 (constantI S_ 32 0#32))) (addi a1 (broadcastInDim S1200000 ![] bcast_S_S1200000 (constantI S_ 32 100000#32))) a1))))) := by
  rw [node_eq, edge_eq, edge_eq, rowwise_rowwise]

end Cert.ReferenceIdeal.RefValue

end
-- ==== Proof.lean ====
/-
  The claim: the three frames, the (empty) idealization ledger, and the equality of the two idealized programs' results.

  Both programs compute, on the extended reals, the same function of their arguments: every node-feature row goes
  through two dense layers with tanh between them; for every edge the rows of its two endpoints (taken at the index
  vectors, a negative index moved up by the number of nodes) and its basis row are added, endpoint + basis + endpoint,
  and the sum goes through two more such two-layer maps; the edge rows are then added into the node row of the edge's
  first endpoint. The kernel program does the two dense stretches blockwise, ten and a hundred row blocks; a row's
  result depends on that row only, so the blocks are restrictions of one array each. Its matrix products accumulate
  into a zero array and round their operands to bf16 first, which on the extended reals is the host's dot_general; the
  gathers and the scatter-add are the same host operations in both programs and are carried along unopened. No law of
  real arithmetic beyond  0 + x = x  is used, so the precondition (finite inputs) is not opened.
-/
import proofs.«120039_j12532714569875_1_alg».proof.Defs
import proofs.«120039_j12532714569875_1_alg».proof.Proof.Gen.Kernel
import proofs.«120039_j12532714569875_1_alg».proof.Proof.Gen.Kernel.Frame
import proofs.«120039_j12532714569875_1_alg».proof.Proof.Gen.KernelIdeal
import proofs.«120039_j12532714569875_1_alg».proof.Proof.Gen.KernelIdeal.Frame
import proofs.«120039_j12532714569875_1_alg».proof.Proof.Gen.ReferenceIdeal
import proofs.«120039_j12532714569875_1_alg».proof.Proof.Gen.Pre_finite_inputs
import proofs.«120039_j12532714569875_1_alg».proof.Proof.Gen.ReferenceIdeal.Run
import proofs.«120039_j12532714569875_1_alg».proof.Proof.KernelRun
import proofs.«120039_j12532714569875_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame of its two regions. -/
theorem frame_kernel : Cert.frame_Kernel := fun m ρ _ => Cert.Kernel.Gen.frame m ρ

/-- The idealized kernel program runs and keeps its arguments: the same frame read at the extended reals. -/
theorem frame_kernelIdeal : Cert.frame_KernelIdeal := fun m ρ _ => Cert.KernelIdeal.Gen.frame m ρ

/-- The idealized reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result `kout`: the kernel program by its run,
    the reference because its run's term is the same function of the same arguments. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.RefValue.result_eq, e0, e1, e2, e3, e4, e5, e6, e7, e8, e9, e10, e11, e12, e13, e14, e15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
